-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x8 : Shape := ⟨2, ![4194304, 8]⟩
abbrev S6x8 : Shape := ⟨2, ![6, 8]⟩
abbrev S6 : Shape := ⟨1, ![6]⟩
abbrev S6x6 : Shape := ⟨2, ![6, 6]⟩
abbrev S4x6 : Shape := ⟨2, ![4, 6]⟩
abbrev S4 : Shape := ⟨1, ![4]⟩
abbrev S4x4 : Shape := ⟨2, ![4, 4]⟩
abbrev S1x4 : Shape := ⟨2, ![1, 4]⟩
abbrev S1 : Shape := ⟨1, ![1]⟩
abbrev S_ : Shape := ⟨0, ![]⟩

class Facts : Prop where
  bcast_S_S4194304x8 : S_.BroadcastsInDim S4194304x8 (![] : Fin 0 → Fin S4194304x8.rank)
  reducesTo_S4194304x8_S_d0_1 : S4194304x8.ReducesTo [0, 1] S_
  h_S_ : 0 < S_.numel
  bcast_S_S6x8 : S_.BroadcastsInDim S6x8 (![] : Fin 0 → Fin S6x8.rank)
  reducesTo_S6x8_S_d0_1 : S6x8.ReducesTo [0, 1] S_
  bcast_S_S6 : S_.BroadcastsInDim S6 (![] : Fin 0 → Fin S6.rank)
  reducesTo_S6_S_d0 : S6.ReducesTo [0] S_
  bcast_S_S6x6 : S_.BroadcastsInDim S6x6 (![] : Fin 0 → Fin S6x6.rank)
  reducesTo_S6x6_S_d0_1 : S6x6.ReducesTo [0, 1] S_
  bcast_S_S4x6 : S_.BroadcastsInDim S4x6 (![] : Fin 0 → Fin S4x6.rank)
  reducesTo_S4x6_S_d0_1 : S4x6.ReducesTo [0, 1] S_
  bcast_S_S4 : S_.BroadcastsInDim S4 (![] : Fin 0 → Fin S4.rank)
  reducesTo_S4_S_d0 : S4.ReducesTo [0] S_
  bcast_S_S4x4 : S_.BroadcastsInDim S4x4 (![] : Fin 0 → Fin S4x4.rank)
  reducesTo_S4x4_S_d0_1 : S4x4.ReducesTo [0, 1] S_
  bcast_S_S1x4 : S_.BroadcastsInDim S1x4 (![] : Fin 0 → Fin S1x4.rank)
  reducesTo_S1x4_S_d0_1 : S1x4.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S1x4 .f32) (main_arg22 : FVec F S1 .f32) (main_v98 : IVec S_ 1) (main_v101 : IVec S4 1) (main_c_39 : IVec S_ 1) : IVec S_ 1 :=
  let main_v102 : IVec S_ 1 := (fun x v => Host.reduce IntOp.andi x v reducesTo_S4_S_d0 h_S_) main_v101 main_c_39
  let main_v103 : IVec S_ 1 := andi main_v98 main_v102
  let main_v104 : FVec F S1x4 .f32 := Host.absf main_arg21
  let main_cst_40 : FVec F S_ .f32 := constant S_ .f32 0x7F800000#32
  let main_v105 : FVec F S1x4 .f32 := broadcastInDim S1x4 ![] bcast_S_S1x4 main_cst_40
  let main_v106 : IVec S1x4 1 := cmpf .olt main_v104 main_v105
  let main_c_41 : IVec S_ 1 := constantI S_ 1 1#1
  let main_v107 : IVec S_ 1 := (fun x v => Host.reduce IntOp.andi x v reducesTo_S1x4_S_d0_1 h_S_) main_v106 main_c_41
  let main_v108 : IVec S_ 1 := andi main_v103 main_v107
  let main_v109 : FVec F S1 .f32 := Host.absf main_arg22
  let main_cst_42 : FVec F S_ .f32 := constant S_ .f32 0x7F800000#32
  let main_v110 : FVec F S1 .f32 := broadcastInDim S1 ![] bcast_S_S1 main_cst_42
  let main_v111 : IVec S1 1 := cmpf .olt main_v109 main_v110
  let main_c_43 : IVec S_ 1 := constantI S_ 1 1#1
  let main_v112 : IVec S_ 1 := (fun x v => Host.reduce IntOp.andi x v reducesTo_S1_S_d0 h_S_) main_v111 main_c_43
  let main_v113 : IVec S_ 1 := andi main_v108 main_v112
  main_v113

def fn_part5 {F : FTy → Type} [FloatOps F] (main_arg18 : FVec F S4 .f32) (main_arg19 : FVec F S4x4 .f32) (main_arg20 : FVec F S4 .f32) (main_arg21 : FVec F S1x4 .f32) (main_arg22 : FVec F S1 .f32) (main_v83 : IVec S_ 1) (main_v84 : FVec F S4x4 .f32) (main_cst_32 : FVec F S_ .f32) : IVec S_ 1 :=
  let main_v85 : FVec F S4x4 .f32 := broadcastInDim S4x4 ![] bcast_S_S4x4 main_cst_32
  let main_v86 : IVec S4x4 1 := cmpf .olt main_v84 main_v85
  let main_c_33 : IVec S_ 1 := constantI S_ 1 1#1
  let main_v87 : IVec S_ 1 := (fun x v => Host.reduce IntOp.andi x v reducesTo_S4x4_S_d0_1 h_S_) main_v86 main_c_33
  let main_v88 : IVec S_ 1 := andi main_v83 main_v87
  let main_v89 : FVec F S4 .f32 := Host.absf main_arg18
  let main_cst_34 : FVec F S_ .f32 := constant S_ .f32 0x7F800000#32
  let main_v90 : FVec F S4 .f32 := broadcastInDim S4 ![] bcast_S_S4 main_cst_34
  let main_v91 : IVec S4 1 := cmpf .olt main_v89 main_v90
  let main_c_35 : IVec S_ 1 := constantI S_ 1 1#1
  let main_v92 : IVec S_ 1 := (fun x v => Host.reduce IntOp.andi x v reducesTo_S4_S_d0 h_S_) main_v91 main_c_35
  let main_v93 : IVec S_ 1 := andi main_v88 main_v92
  let main_v94 : FVec F S4x4 .f32 := Host.absf main_arg19
  let main_cst_36 : FVec F S_ .f32 := constant S_ .f32 0x7F800000#32
  let main_v95 : FVec F S4x4 .f32 := broadcastInDim S4x4 ![] bcast_S_S4x4 main_cst_36
  let main_v96 : IVec S4x4 1 := cmpf .olt main_v94 main_v95
  let main_c_37 : IVec S_ 1 := constantI S_ 1 1#1
  let main_v97 : IVec S_ 1 := (fun x v => Host.reduce IntOp.andi x v reducesTo_S4x4_S_d0_1 h_S_) main_v96 main_c_37
  let main_v98 : IVec S_ 1 := andi main_v93 main_v97
  let main_v99 : FVec F S4 .f32 := Host.absf main_arg20
  let main_cst_38 : FVec F S_ .f32 := constant S_ .f32 0x7F800000#32
  let main_v100 : FVec F S4 .f32 := broadcastInDim S4 ![] bcast_S_S4 main_cst_38
  let main_v101 : IVec S4 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S4 .f32) (main_arg15 : FVec F S4x4 .f32) (main_arg16 : FVec F S4 .f32) (main_arg17 : FVec F S4x4 .f32) (main_arg18 : FVec F S4 .f32) (main_arg19 : FVec F S4x4 .f32) (main_arg20 : FVec F S4 .f32) (main_arg21 : FVec F S1x4 .f32) (main_arg22 : FVec F S1 .f32) (main_v63 : IVec S_ 1) (main_v67 : IVec S_ 1) : IVec S_ 1 :=
  let main_v68 : IVec S_ 1 := andi main_v63 main_v67
  let main_v69 : FVec F S4 .f32 := Host.absf main_arg14
  let main_cst_26 : FVec F S_ .f32 := constant S_ .f32 0x7F800000#32
  let main_v70 : FVec F S4 .f32 := broadcastInDim S4 ![] bcast_S_S4 main_cst_26
  let main_v71 : IVec S4 1 := cmpf .olt main_v69 main_v70
  let main_c_27 : IVec S_ 1 := constantI S_ 1 1#1
  let main_v72 : IVec S_ 1 := (fun x v => Host.reduce IntOp.andi x v reducesTo_S4_S_d0 h_S_) main_v71 main_c_27
  let main_v73 : IVec S_ 1 := andi main_v68 main_v72
  let main_v74 : FVec F S4x4 .f32 := Host.absf main_arg15
  let main_cst_28 : FVec F S_ .f32 := constant S_ .f32 0x7F800000#32
  let main_v75 : FVec F S4x4 .f32 := broadcastInDim S4x4 ![] bcast_S_S4x4 main_cst_28
  let main_v76 : IVec S4x4 1 := cmpf .olt main_v74 main_v75
  let main_c_29 : IVec S_ 1 := constantI S_ 1 1#1
  let main_v77 : IVec S_ 1 := (fun x v => Host.reduce IntOp.andi x v reducesTo_S4x4_S_d0_1 h_S_) main_v76 main_c_29
  let main_v78 : IVec S_ 1 := andi main_v73 main_v77
  let main_v79 : FVec F S4 .f32 := Host.absf main_arg16
  let main_cst_30 : FVec F S_ .f32 := constant S_ .f32 0x7F800000#32
  let main_v80 : FVec F S4 .f32 := broadcastInDim S4 ![] bcast_S_S4 main_cst_30
  let main_v81 : IVec S4 1 := cmpf .olt main_v79 main_v80
  let main_c_31 : IVec S_ 1 := constantI S_ 1 1#1
  let main_v82 : IVec S_ 1 := (fun x v => Host.reduce IntOp.andi x v reducesTo_S4_S_d0 h_S_) main_v81 main_c_31
  let main_v83 : IVec S_ 1 := andi main_v78 main_v82
  let main_v84 : FVec F S4x4 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S6x6 .f32) (main_arg12 : FVec F S6 .f32) (main_arg13 : FVec F S4x6 .f32) (main_arg14 : FVec F S4 .f32) (main_arg15 : FVec F S4x4 .f32) (main_arg16 : FVec F S4 .f32) (main_arg17 : FVec F S4x4 .f32) (main_arg18 : FVec F S4 .f32) (main_arg19 : FVec F S4x4 .f32) (main_arg20 : FVec F S4 .f32) (main_arg21 : FVec F S1x4 .f32) (main_arg22 : FVec F S1 .f32) (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  let main_v54 : FVec F S6x6 .f32 := Host.absf main_arg11
  let main_cst_20 : FVec F S_ .f32 := constant S_ .f32 0x7F800000#32
  let main_v55 : FVec F S6x6 .f32 := broadcastInDim S6x6 ![] bcast_S_S6x6 main_cst_20
  let main_v56 : IVec S6x6 1 := cmpf .olt main_v54 main_v55
  let main_c_21 : IVec S_ 1 := constantI S_ 1 1#1
  let main_v57 : IVec S_ 1 := (fun x v => Host.reduce IntOp.andi x v reducesTo_S6x6_S_d0_1 h_S_) main_v56 main_c_21
  let main_v58 : IVec S_ 1 := andi main_v53 main_v57
  let main_v59 : FVec F S6 .f32 := Host.absf main_arg12
  let main_cst_22 : FVec F S_ .f32 := constant S_ .f32 0x7F800000#32
  let main_v60 : FVec F S6 .f32 := broadcastInDim S6 ![] bcast_S_S6 main_cst_22
  let main_v61 : IVec S6 1 := cmpf .olt main_v59 main_v60
  let main_c_23 : IVec S_ 1 := constantI S_ 1 1#1
  let main_v62 : IVec S_ 1 := (fun x v => Host.reduce IntOp.andi x v reducesTo_S6_S_d0 h_S_) main_v61 main_c_23
  let main_v63 : IVec S_ 1 := andi main_v58 main_v62
  let main_v64 : FVec F S4x6 .f32 := Host.absf main_arg13
  let main_cst_24 : FVec F S_ .f32 := constant S_ .f32 0x7F800000#32
  let main_v65 : FVec F S4x6 .f32 := broadcastInDim S4x6 ![] bcast_S_S4x6 main_cst_24
  let main_v66 : IVec S4x6 1 := cmpf .olt main_v64 main_v65
  let main_c_25 : IVec S_ 1 := constantI S_ 1 1#1
  let main_v67 : IVec S_ 1 := (fun x v => Host.reduce IntOp.andi x v reducesTo_S4x6_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S6x6 .f32) (main_arg8 : FVec F S6 .f32) (main_arg9 : FVec F S6x6 .f32) (main_arg10 : FVec F S6 .f32) (main_arg11 : FVec F S6x6 .f32) (main_arg12 : FVec F S6 .f32) (main_arg13 : FVec F S4x6 .f32) (main_arg14 : FVec F S4 .f32) (main_arg15 : FVec F S4x4 .f32) (main_arg16 : FVec F S4 .f32) (main_arg17 : FVec F S4x4 .f32) (main_arg18 : FVec F S4 .f32) (main_arg19 : FVec F S4x4 .f32) (main_arg20 : FVec F S4 .f32) (main_arg21 : FVec F S1x4 .f32) (main_arg22 : FVec F S1 .f32) (main_v33 : IVec S_ 1) : IVec S_ 1 :=
  let main_v34 : FVec F S6x6 .f32 := Host.absf main_arg7
  let main_cst_12 : FVec F S_ .f32 := constant S_ .f32 0x7F800000#32
  let main_v35 : FVec F S6x6 .f32 := broadcastInDim S6x6 ![] bcast_S_S6x6 main_cst_12
  let main_v36 : IVec S6x6 1 := cmpf .olt main_v34 main_v35
  let main_c_13 : IVec S_ 1 := constantI S_ 1 1#1
  let main_v37 : IVec S_ 1 := (fun x v => Host.reduce IntOp.andi x v reducesTo_S6x6_S_d0_1 h_S_) main_v36 main_c_13
  let main_v38 : IVec S_ 1 := andi main_v33 main_v37
  let main_v39 : FVec F S6 .f32 := Host.absf main_arg8
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  let main_v44 : FVec F S6x6 .f32 := Host.absf main_arg9
  let main_cst_16 : FVec F S_ .f32 := constant S_ .f32 0x7F800000#32
  let main_v45 : FVec F S6x6 .f32 := broadcastInDim S6x6 ![] bcast_S_S6x6 main_cst_16
  let main_v46 : IVec S6x6 1 := cmpf .olt main_v44 main_v45
  let main_c_17 : IVec S_ 1 := constantI S_ 1 1#1
  let main_v47 : IVec S_ 1 := (fun x v => Host.reduce IntOp.andi x v reducesTo_S6x6_S_d0_1 h_S_) main_v46 main_c_17
  let main_v48 : IVec S_ 1 := andi main_v43 main_v47
  let main_v49 : FVec F S6 .f32 := Host.absf main_arg10
  let main_cst_18 : FVec F S_ .f32 := constant S_ .f32 0x7F800000#32
  let main_v50 : FVec F S6 .f32 := broadcastInDim S6 ![] bcast_S_S6 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S6 .f32) (main_arg5 : FVec F S6x6 .f32) (main_arg6 : FVec F S6 .f32) (main_arg7 : FVec F S6x6 .f32) (main_arg8 : FVec F S6 .f32) (main_arg9 : FVec F S6x6 .f32) (main_arg10 : FVec F S6 .f32) (main_arg11 : FVec F S6x6 .f32) (main_arg12 : FVec F S6 .f32) (main_arg13 : FVec F S4x6 .f32) (main_arg14 : FVec F S4 .f32) (main_arg15 : FVec F S4x4 .f32) (main_arg16 : FVec F S4 .f32) (main_arg17 : FVec F S4x4 .f32) (main_arg18 : FVec F S4 .f32) (main_arg19 : FVec F S4x4 .f32) (main_arg20 : FVec F S4 .f32) (main_arg21 : FVec F S1x4 .f32) (main_arg22 : FVec F S1 .f32) (main_v13 : IVec S_ 1) (main_v16 : IVec S6x6 1) : IVec S_ 1 :=
  let main_c_5 : IVec S_ 1 := constantI S_ 1 1#1
  let main_v17 : IVec S_ 1 := (fun x v => Host.reduce IntOp.andi x v reducesTo_S6x6_S_d0_1 h_S_) main_v16 main_c_5
  let main_v18 : IVec S_ 1 := andi main_v13 main_v17
  let main_v19 : FVec F S6 .f32 := Host.absf main_arg4
  let main_cst_6 : FVec F S_ .f32 := constant S_ .f32 0x7F800000#32
  let main_v20 : FVec F S6 .f32 := broadcastInDim S6 ![] bcast_S_S6 main_cst_6
  let main_v21 : IVec S6 1 := cmpf .olt main_v19 main_v20
  let main_c_7 : IVec S_ 1 := constantI S_ 1 1#1
  let main_v22 : IVec S_ 1 := (fun x v => Host.reduce IntOp.andi x v reducesTo_S6_S_d0 h_S_) main_v21 main_c_7
  let main_v23 : IVec S_ 1 := andi main_v18 main_v22
  let main_v24 : FVec F S6x6 .f32 := Host.absf main_arg5
  let main_cst_8 : FVec F S_ .f32 := constant S_ .f32 0x7F800000#32
  let main_v25 : FVec F S6x6 .f32 := broadcastInDim S6x6 ![] bcast_S_S6x6 main_cst_8
  let main_v26 : IVec S6x6 1 := cmpf .olt main_v24 main_v25
  let main_c_9 : IVec S_ 1 := constantI S_ 1 1#1
  let main_v27 : IVec S_ 1 := (fun x v => Host.reduce IntOp.andi x v reducesTo_S6x6_S_d0_1 h_S_) main_v26 main_c_9
  let main_v28 : IVec S_ 1 := andi main_v23 main_v27
  let main_v29 : FVec F S6 .f32 := Host.absf main_arg6
  let main_cst_10 : FVec F S_ .f32 := constant S_ .f32 0x7F800000#32
  let main_v30 : FVec F S6 .f32 := broadcastInDim S6 ![] bcast_S_S6 main_cst_10
  let main_v31 : IVec S6 1 := cmpf .olt main_v29 main_v30
  let main_c_11 : IVec S_ 1 := constantI S_ 1 1#1
  let main_v32 : IVec S_ 1 := (fun x v => Host.reduce IntOp.andi x v reducesTo_S6_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S4194304x8 .f32) (main_arg1 : FVec F S6x8 .f32) (main_arg2 : FVec F S6 .f32) (main_arg3 : FVec F S6x6 .f32) (main_arg4 : FVec F S6 .f32) (main_arg5 : FVec F S6x6 .f32) (main_arg6 : FVec F S6 .f32) (main_arg7 : FVec F S6x6 .f32) (main_arg8 : FVec F S6 .f32) (main_arg9 : FVec F S6x6 .f32) (main_arg10 : FVec F S6 .f32) (main_arg11 : FVec F S6x6 .f32) (main_arg12 : FVec F S6 .f32) (main_arg13 : FVec F S4x6 .f32) (main_arg14 : FVec F S4 .f32) (main_arg15 : FVec F S4x4 .f32) (main_arg16 : FVec F S4 .f32) (main_arg17 : FVec F S4x4 .f32) (main_arg18 : FVec F S4 .f32) (main_arg19 : FVec F S4x4 .f32) (main_arg20 : FVec F S4 .f32) (main_arg21 : FVec F S1x4 .f32) (main_arg22 : FVec F S1 .f32) : IVec S_ 1 :=
  let main_v0 : FVec F S4194304x8 .f32 := Host.absf main_arg0
  let main_cst : FVec F S_ .f32 := constant S_ .f32 0x7F800000#32
  let main_v1 : FVec F S4194304x8 .f32 := broadcastInDim S4194304x8 ![] bcast_S_S4194304x8 main_cst
  let main_v2 : IVec S4194304x8 1 := cmpf .olt main_v0 main_v1
  let main_c : IVec S_ 1 := constantI S_ 1 1#1
  let main_v3 : IVec S_ 1 := (fun x v => Host.reduce IntOp.andi x v reducesTo_S4194304x8_S_d0_1 h_S_) main_v2 main_c
  let main_v4 : FVec F S6x8 .f32 := Host.absf main_arg1
  let main_cst_0 : FVec F S_ .f32 := constant S_ .f32 0x7F800000#32
  let main_v5 : FVec F S6x8 .f32 := broadcastInDim S6x8 ![] bcast_S_S6x8 main_cst_0
  let main_v6 : IVec S6x8 1 := cmpf .olt main_v4 main_v5
  let main_c_1 : IVec S_ 1 := constantI S_ 1 1#1
  let main_v7 : IVec S_ 1 := (fun x v => Host.reduce IntOp.andi x v reducesTo_S6x8_S_d0_1 h_S_) main_v6 main_c_1
  let main_v8 : IVec S_ 1 := andi main_v3 main_v7
  let main_v9 : FVec F S6 .f32 := Host.absf main_arg2
  let main_cst_2 : FVec F S_ .f32 := constant S_ .f32 0x7F800000#32
  let main_v10 : FVec F S6 .f32 := broadcastInDim S6 ![] bcast_S_S6 main_cst_2
  let main_v11 : IVec S6 1 := cmpf .olt main_v9 main_v10
  let main_c_3 : IVec S_ 1 := constantI S_ 1 1#1
  let main_v12 : IVec S_ 1 := (fun x v => Host.reduce IntOp.andi x v reducesTo_S6_S_d0 h_S_) main_v11 main_c_3
  let main_v13 : IVec S_ 1 := andi main_v8 main_v12
  let main_v14 : FVec F S6x6 .f32 := Host.absf main_arg3
  let main_cst_4 : FVec F S_ .f32 := constant S_ .f32 0x7F800000#32
  let main_v15 : FVec F S6x6 .f32 := broadcastInDim S6x6 ![] bcast_S_S6x6 main_cst_4
  let main_v16 : IVec S6x6 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S4194304x8 : Shape := ⟨2, ![4194304, 8]⟩
abbrev S6x8 : Shape := ⟨2, ![6, 8]⟩
abbrev S6 : Shape := ⟨1, ![6]⟩
abbrev S6x6 : Shape := ⟨2, ![6, 6]⟩
abbrev S4x6 : Shape := ⟨2, ![4, 6]⟩
abbrev S4 : Shape := ⟨1, ![4]⟩
abbrev S4x4 : Shape := ⟨2, ![4, 4]⟩
abbrev S1x4 : Shape := ⟨2, ![1, 4]⟩
abbrev S1 : Shape := ⟨1, ![1]⟩
abbrev S4194304x1 : Shape := ⟨2, ![4194304, 1]⟩
abbrev S8192x8 : Shape := ⟨2, ![8192, 8]⟩
abbrev S8192x1 : Shape := ⟨2, ![8192, 1]⟩
abbrev S8192x6 : Shape := ⟨2, ![8192, 6]⟩
abbrev S1x6 : Shape := ⟨2, ![1, 6]⟩
abbrev S8192x4 : Shape := ⟨2, ![8192, 4]⟩
abbrev S1x1 : Shape := ⟨2, ![1, 1]⟩

abbrev nBuf : Space → Nat
  | .hbm => 24
  | .vmem => 26
  | .smem => 0
  | _ => 0

abbrev bufTy : (tb : Table) → Fin (tcTables nBuf tb) → BufTy
  | .hbm, ⟨0, _⟩ => ⟨S4194304x8, .f32⟩
  | .hbm, ⟨1, _⟩ => ⟨S6x8, .f32⟩
  | .hbm, ⟨2, _⟩ => ⟨S6, .f32⟩
  | .hbm, ⟨3, _⟩ => ⟨S6x6, .f32⟩
  | .hbm, ⟨4, _⟩ => ⟨S6, .f32⟩
  | .hbm, ⟨5, _⟩ => ⟨S6x6, .f32⟩
  | .hbm, ⟨6, _⟩ => ⟨S6, .f32⟩
  | .hbm, ⟨7, _⟩ => ⟨S6x6, .f32⟩
  | .hbm, ⟨8, _⟩ => ⟨S6, .f32⟩
  | .hbm, ⟨9, _⟩ => ⟨S6x6, .f32⟩
  | .hbm, ⟨10, _⟩ => ⟨S6, .f32⟩
  | .hbm, ⟨11, _⟩ => ⟨S6x6, .f32⟩
  | .hbm, ⟨12, _⟩ => ⟨S6, .f32⟩
  | .hbm, ⟨13, _⟩ => ⟨S4x6, .f32⟩
  | .hbm, ⟨14, _⟩ => ⟨S4, .f32⟩
  | .hbm, ⟨15, _⟩ => ⟨S4x4, .f32⟩
  | .hbm, ⟨16, _⟩ => ⟨S4, .f32⟩
  | .hbm, ⟨17, _⟩ => ⟨S4x4, .f32⟩
  | .hbm, ⟨18, _⟩ => ⟨S4, .f32⟩
  | .hbm, ⟨19, _⟩ => ⟨S4x4, .f32⟩
  | .hbm, ⟨20, _⟩ => ⟨S4, .f32⟩
  | .hbm, ⟨21, _⟩ => ⟨S1x4, .f32⟩
  | .hbm, ⟨22, _⟩ => ⟨S1, .f32⟩
  | .hbm, ⟨23, _⟩ => ⟨S4194304x1, .f32⟩
  | .local _ .vmem, ⟨0, _⟩ => ⟨S8192x8, .f32⟩
  | .local _ .vmem, ⟨1, _⟩ => ⟨S8192x8, .f32⟩
  | .local _ .vmem, ⟨2, _⟩ => ⟨S6x8, .f32⟩
  | .local _ .vmem, ⟨3, _⟩ => ⟨S6, .f32⟩
  | .local _ .vmem, ⟨4, _⟩ => ⟨S6x6, .f32⟩
  | .local _ .vmem, ⟨5, _⟩ => ⟨S6, .f32⟩
  | .local _ .vmem, ⟨6, _⟩ => ⟨S6x6, .f32⟩
  | .local _ .vmem, ⟨7, _⟩ => ⟨S6, .f32⟩
  | .local _ .vmem, ⟨8, _⟩ => ⟨S6x6, .f32⟩
  | .local _ .vmem, ⟨9, _⟩ => ⟨S6, .f32⟩
  | .local _ .vmem, ⟨10, _⟩ => ⟨S6x6, .f32⟩
  | .local _ .vmem, ⟨11, _⟩ => ⟨S6, .f32⟩
  | .local _ .vmem, ⟨12, _⟩ => ⟨S6x6, .f32⟩
  | .local _ .vmem, ⟨13, _⟩ => ⟨S6, .f32⟩
  | .local _ .vmem, ⟨14, _⟩ => ⟨S4x6, .f32⟩
  | .local _ .vmem, ⟨15, _⟩ => ⟨S4, .f32⟩
  | .local _ .vmem, ⟨16, _⟩ => ⟨S4x4, .f32⟩
  | .local _ .vmem, ⟨17, _⟩ => ⟨S4, .f32⟩
  | .local _ .vmem, ⟨18, _⟩ => ⟨S4x4, .f32⟩
  | .local _ .vmem, ⟨19, _⟩ => ⟨S4, .f32⟩
  | .local _ .vmem, ⟨20, _⟩ => ⟨S4x4, .f32⟩
  | .local _ .vmem, ⟨21, _⟩ => ⟨S4, .f32⟩
  | .local _ .vmem, ⟨22, _⟩ => ⟨S1x4, .f32⟩
  | .local _ .vmem, ⟨23, _⟩ => ⟨S1, .f32⟩
  | .local _ .vmem, ⟨24, _⟩ => ⟨S8192x1, .f32⟩
  | .local _ .vmem, ⟨25, _⟩ => ⟨S8192x1, .f32⟩
  | _, _ => ⟨S4194304x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x6 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S6 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6x6 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S6 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x6 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S4 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S4x4 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x4 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S8192x1 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  inb_S8192x8_S8192x8_0_0 : ∀ a, (![0, 0] : Fin 2 → Nat) a + S8192x8.size a ≤ S8192x8.size a
  h_S8192x8 : 0 < S8192x8.numel
  inb_S6x8_S6x8_0_0 : ∀ a, (![0, 0] : Fin 2 → Nat) a + S6x8.size a ≤ S6x8.size a
  h_S6x8 : 0 < S6x8.numel
  inb_S6_S6_0 : ∀ a, (![0] : Fin 1 → Nat) a + S6.size a ≤ S6.size a
  h_S6 : 0 < S6.numel
  shapeCasts_S6_S1x6 : S6.ShapeCasts S1x6
  broadcasts_S1x6_S8192x6 : S1x6.Broadcasts S8192x6
  inb_S6x6_S6x6_0_0 : ∀ a, (![0, 0] : Fin 2 → Nat) a + S6x6.size a ≤ S6x6.size a
  h_S6x6 : 0 < S6x6.numel
  inb_S4x6_S4x6_0_0 : ∀ a, (![0, 0] : Fin 2 → Nat) a + S4x6.size a ≤ S4x6.size a
  h_S4x6 : 0 < S4x6.numel
  inb_S4_S4_0 : ∀ a, (![0] : Fin 1 → Nat) a + S4.size a ≤ S4.size a
  h_S4 : 0 < S4.numel
  shapeCasts_S4_S1x4 : S4.ShapeCasts S1x4
  broadcasts_S1x4_S8192x4 : S1x4.Broadcasts S8192x4
  inb_S4x4_S4x4_0_0 : ∀ a, (![0, 0] : Fin 2 → Nat) a + S4x4.size a ≤ S4x4.size a
  h_S4x4 : 0 < S4x4.numel
  inb_S1x4_S1x4_0_0 : ∀ a, (![0, 0] : Fin 2 → Nat) a + S1x4.size a ≤ S1x4.size a
  h_S1x4 : 0 < S1x4.numel
  inb_S1_S1_0 : ∀ a, (![0] : Fin 1 → Nat) a + S1.size a ≤ S1.size a
  h_S1 : 0 < S1.numel
  shapeCasts_S1_S1x1 : S1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x8_S6x8_S8192x6_1_1_0_0_n_n_wf : DotDims.WF S8192x8 S6x8 S8192x6 [1] [1] [0] [0] [] []
  dot_S8192x6_S6x6_S8192x6_1_1_0_0_n_n_wf : DotDims.WF S8192x6 S6x6 S8192x6 [1] [1] [0] [0] [] []
  dot_S8192x6_S4x6_S8192x4_1_1_0_0_n_n_wf : DotDims.WF S8192x6 S4x6 S8192x4 [1] [1] [0] [0] [] []
  dot_S8192x4_S4x4_S8192x4_1_1_0_0_n_n_wf : DotDims.WF S8192x4 S4x4 S8192x4 [1] [1] [0] [0] [] []
  dot_S8192x4_S1x4_S8192x1_1_1_0_0_n_n_wf : DotDims.WF S8192x4 S1x4 S8192x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S4194304x8.size a
  hwx0_0 : ∀ i : grid0.Coords, EltTy.bits .f32 = 32 ∨ (Rect.block (s := S4194304x8) S8192x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x8.size a ≤ S6x8.size a
  hwx0_1 : ∀ i : grid0.Coords, EltTy.bits .f32 = 32 ∨ (Rect.block (s := S6x8) S6x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6.size a ≤ S6.size a
  hwx0_2 : ∀ i : grid0.Coords, EltTy.bits .f32 = 32 ∨ (Rect.block (s := S6) S6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x6.size a ≤ S6x6.size a
  hwx0_3 : ∀ i : grid0.Coords, EltTy.bits .f32 = 32 ∨ (Rect.block (s := S6x6) S6x6.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6.size a ≤ S6.size a
  hwx0_4 : ∀ i : grid0.Coords, EltTy.bits .f32 = 32 ∨ (Rect.block (s := S6) S6.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x6.size a ≤ S6x6.size a
  hwx0_5 : ∀ i : grid0.Coords, EltTy.bits .f32 = 32 ∨ (Rect.block (s := S6x6) S6x6.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6.size a ≤ S6.size a
  hwx0_6 : ∀ i : grid0.Coords, EltTy.bits .f32 = 32 ∨ (Rect.block (s := S6) S6.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x6.size a ≤ S6x6.size a
  hwx0_7 : ∀ i : grid0.Coords, EltTy.bits .f32 = 32 ∨ (Rect.block (s := S6x6) S6x6.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6.size a ≤ S6.size a
  hwx0_8 : ∀ i : grid0.Coords, EltTy.bits .f32 = 32 ∨ (Rect.block (s := S6) S6.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x6.size a ≤ S6x6.size a
  hwx0_9 : ∀ i : grid0.Coords, EltTy.bits .f32 = 32 ∨ (Rect.block (s := S6x6) S6x6.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S6.size a ≤ S6.size a
  hwx0_10 : ∀ i : grid0.Coords, EltTy.bits .f32 = 32 ∨ (Rect.block (s := S6) S6.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S6x6.size a ≤ S6x6.size a
  hwx0_11 : ∀ i : grid0.Coords, EltTy.bits .f32 = 32 ∨ (Rect.block (s := S6x6) S6x6.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S6.size a ≤ S6.size a
  hwx0_12 : ∀ i : grid0.Coords, EltTy.bits .f32 = 32 ∨ (Rect.block (s := S6) S6.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x6.size a ≤ S4x6.size a
  hwx0_13 : ∀ i : grid0.Coords, EltTy.bits .f32 = 32 ∨ (Rect.block (s := S4x6) S4x6.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S4.size a ≤ S4.size a
  hwx0_14 : ∀ i : grid0.Coords, EltTy.bits .f32 = 32 ∨ (Rect.block (s := S4) S4.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S4x4.size a ≤ S4x4.size a
  hwx0_15 : ∀ i : grid0.Coords, EltTy.bits .f32 = 32 ∨ (Rect.block (s := S4x4) S4x4.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S4.size a ≤ S4.size a
  hwx0_16 : ∀ i : grid0.Coords, EltTy.bits .f32 = 32 ∨ (Rect.block (s := S4) S4.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S4x4.size a ≤ S4x4.size a
  hwx0_17 : ∀ i : grid0.Coords, EltTy.bits .f32 = 32 ∨ (Rect.block (s := S4x4) S4x4.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S4.size a ≤ S4.size a
  hwx0_18 : ∀ i : grid0.Coords, EltTy.bits .f32 = 32 ∨ (Rect.block (s := S4) S4.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S4x4.size a ≤ S4x4.size a
  hwx0_19 : ∀ i : grid0.Coords, EltTy.bits .f32 = 32 ∨ (Rect.block (s := S4x4) S4x4.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S4.size a ≤ S4.size a
  hwx0_20 : ∀ i : grid0.Coords, EltTy.bits .f32 = 32 ∨ (Rect.block (s := S4) S4.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x4.size a ≤ S1x4.size a
  hwx0_21 : ∀ i : grid0.Coords, EltTy.bits .f32 = 32 ∨ (Rect.block (s := S1x4) S1x4.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1.size a ≤ S1.size a
  hwx0_22 : ∀ i : grid0.Coords, EltTy.bits .f32 = 32 ∨ (Rect.block (s := S1) S1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S8192x1.size a ≤ S4194304x1.size a
  hwx0_23 : ∀ i : grid0.Coords, EltTy.bits .f32 = 32 ∨ (Rect.block (s := S4194304x1) S8192x1.size (cc0_transform_23 i) (hinb0_23 i)).WholeWords (EltTy.packing .f32)

variable [Facts₀]

def dot_S8192x8_S6x8_S8192x6_1_1_0_0_n_n : DotDims S8192x8 S6x8 S8192x6 where
  lhsContracting := [1]
  rhsContracting := [1]
  lhsNonContracting := [0]
  rhsNonContracting := [0]
  lhsBatch := []
  rhsBatch := []
  wf := dot_S8192x8_S6x8_S8192x6_1_1_0_0_n_n_wf
def dot_S8192x6_S6x6_S8192x6_1_1_0_0_n_n : DotDims S8192x6 S6x6 S8192x6 where
  lhsContracting := [1]
  rhsContracting := [1]
  lhsNonContracting := [0]
  rhsNonContracting := [0]
  lhsBatch := []
  rhsBatch := []
  wf := dot_S8192x6_S6x6_S8192x6_1_1_0_0_n_n_wf
def dot_S8192x6_S4x6_S8192x4_1_1_0_0_n_n : DotDims S8192x6 S4x6 S8192x4 where
  lhsContracting := [1]
  rhsContracting := [1]
  lhsNonContracting := [0]
  rhsNonContracting := [0]
  lhsBatch := []
  rhsBatch := []
  wf := dot_S8192x6_S4x6_S8192x4_1_1_0_0_n_n_wf
def dot_S8192x4_S4x4_S8192x4_1_1_0_0_n_n : DotDims S8192x4 S4x4 S8192x4 where
  lhsContracting := [1]
  rhsContracting := [1]
  lhsNonContracting := [0]
  rhsNonContracting := [0]
  lhsBatch := []
  rhsBatch := []
  wf := dot_S8192x4_S4x4_S8192x4_1_1_0_0_n_n_wf
def dot_S8192x4_S1x4_S8192x1_1_1_0_0_n_n : DotDims S8192x4 S1x4 S8192x1 where
  lhsContracting := [1]
  rhsContracting := [1]
  lhsNonContracting := [0]
  rhsNonContracting := [0]
  lhsBatch := []
  rhsBatch := []
  wf := dot_S8192x4_S1x4_S8192x1_1_1_0_0_n_n_wf

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x6.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S6.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S6x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6x6.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S6.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S6x6.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S6.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S4x6.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S4.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S4x4.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S4.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S4x4.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S4.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S4x4.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S4.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S1x4.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v0) S8192x1.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S4194304x8 : Shape := ⟨2, ![4194304, 8]⟩
abbrev S6x8 : Shape := ⟨2, ![6, 8]⟩
abbrev S6 : Shape := ⟨1, ![6]⟩
abbrev S6x6 : Shape := ⟨2, ![6, 6]⟩
abbrev S4x6 : Shape := ⟨2, ![4, 6]⟩
abbrev S4 : Shape := ⟨1, ![4]⟩
abbrev S4x4 : Shape := ⟨2, ![4, 4]⟩
abbrev S1x4 : Shape := ⟨2, ![1, 4]⟩
abbrev S1 : Shape := ⟨1, ![1]⟩
abbrev S8x6 : Shape := ⟨2, ![8, 6]⟩
abbrev S4194304x6 : Shape := ⟨2, ![4194304, 6]⟩
abbrev S1x6 : Shape := ⟨2, ![1, 6]⟩
abbrev S_ : Shape := ⟨0, ![]⟩
abbrev S6x4 : Shape := ⟨2, ![6, 4]⟩
abbrev S4194304x4 : Shape := ⟨2, ![4194304, 4]⟩
abbrev S4x1 : Shape := ⟨2, ![4, 1]⟩
abbrev S4194304x1 : Shape := ⟨2, ![4194304, 1]⟩
abbrev S1x1 : Shape := ⟨2, ![1, 1]⟩

abbrev nBuf : Space → Nat
  | .hbm => 166
  | .vmem => 0
  | .smem => 0
  | _ => 0

abbrev hbmTy0_0 (i : Nat) : BufTy := match i % 128 with
  | 0 => ⟨S4194304x8, .f32⟩
  | 1 => ⟨S6x8, .f32⟩
  | 2 => ⟨S6, .f32⟩
  | 3 => ⟨S6x6, .f32⟩
  | 4 => ⟨S6, .f32⟩
  | 5 => ⟨S6x6, .f32⟩
  | 6 => ⟨S6, .f32⟩
  | 7 => ⟨S6x6, .f32⟩
  | 8 => ⟨S6, .f32⟩
  | 9 => ⟨S6x6, .f32⟩
  | 10 => ⟨S6, .f32⟩
  | 11 => ⟨S6x6, .f32⟩
  | 12 => ⟨S6, .f32⟩
  | 13 => ⟨S4x6, .f32⟩
  | 14 => ⟨S4, .f32⟩
  | 15 => ⟨S4x4, .f32⟩
  | 16 => ⟨S4, .f32⟩
  | 17 => ⟨S4x4, .f32⟩
  | 18 => ⟨S4, .f32⟩
  | 19 => ⟨S4x4, .f32⟩
  | 20 => ⟨S4, .f32⟩
  | 21 => ⟨S1x4, .f32⟩
  | 22 => ⟨S1, .f32⟩
  | 23 => ⟨S8x6, .f32⟩
  | 24 => ⟨S4194304x6, .f32⟩
  | 25 => ⟨S1x6, .f32⟩
  | 26 => ⟨S4194304x6, .f32⟩
  | 27 => ⟨S4194304x6, .f32⟩
  | 28 => ⟨S4194304x6, .f32⟩
  | 29 => ⟨S4194304x6, .f32⟩
  | 30 => ⟨S_, .f32⟩
  | 31 => ⟨S4194304x6, .f32⟩
  | 32 => ⟨S4194304x6, .f32⟩
  | 33 => ⟨S_, .f32⟩
  | 34 => ⟨S4194304x6, .f32⟩
  | 35 => ⟨S4194304x6, .f32⟩
  | 36 => ⟨S6x6, .f32⟩
  | 37 => ⟨S4194304x6, .f32⟩
  | 38 => ⟨S1x6, .f32⟩
  | 39 => ⟨S4194304x6, .f32⟩
  | 40 => ⟨S4194304x6, .f32⟩
  | 41 => ⟨S4194304x6, .f32⟩
  | 42 => ⟨S4194304x6, .f32⟩
  | 43 => ⟨S_, .f32⟩
  | 44 => ⟨S4194304x6, .f32⟩
  | 45 => ⟨S4194304x6, .f32⟩
  | 46 => ⟨S_, .f32⟩
  | 47 => ⟨S4194304x6, .f32⟩
  | 48 => ⟨S4194304x6, .f32⟩
  | 49 => ⟨S6x6, .f32⟩
  | 50 => ⟨S4194304x6, .f32⟩
  | 51 => ⟨S1x6, .f32⟩
  | 52 => ⟨S4194304x6, .f32⟩
  | 53 => ⟨S4194304x6, .f32⟩
  | 54 => ⟨S4194304x6, .f32⟩
  | 55 => ⟨S4194304x6, .f32⟩
  | 56 => ⟨S_, .f32⟩
  | 57 => ⟨S4194304x6, .f32⟩
  | 58 => ⟨S4194304x6, .f32⟩
  | 59 => ⟨S_, .f32⟩
  | 60 => ⟨S4194304x6, .f32⟩
  | 61 => ⟨S4194304x6, .f32⟩
  | 62 => ⟨S6x6, .f32⟩
  | 63 => ⟨S4194304x6, .f32⟩
  | 64 => ⟨S1x6, .f32⟩
  | 65 => ⟨S4194304x6, .f32⟩
  | 66 => ⟨S4194304x6, .f32⟩
  | 67 => ⟨S4194304x6, .f32⟩
  | 68 => ⟨S4194304x6, .f32⟩
  | 69 => ⟨S_, .f32⟩
  | 70 => ⟨S4194304x6, .f32⟩
  | 71 => ⟨S4194304x6, .f32⟩
  | 72 => ⟨S_, .f32⟩
  | 73 => ⟨S4194304x6, .f32⟩
  | 74 => ⟨S4194304x6, .f32⟩
  | 75 => ⟨S6x6, .f32⟩
  | 76 => ⟨S4194304x6, .f32⟩
  | 77 => ⟨S1x6, .f32⟩
  | 78 => ⟨S4194304x6, .f32⟩
  | 79 => ⟨S4194304x6, .f32⟩
  | 80 => ⟨S4194304x6, .f32⟩
  | 81 => ⟨S4194304x6, .f32⟩
  | 82 => ⟨S_, .f32⟩
  | 83 => ⟨S4194304x6, .f32⟩
  | 84 => ⟨S4194304x6, .f32⟩
  | 85 => ⟨S_, .f32⟩
  | 86 => ⟨S4194304x6, .f32⟩
  | 87 => ⟨S4194304x6, .f32⟩
  | 88 => ⟨S6x6, .f32⟩
  | 89 => ⟨S4194304x6, .f32⟩
  | 90 => ⟨S1x6, .f32⟩
  | 91 => ⟨S4194304x6, .f32⟩
  | 92 => ⟨S4194304x6, .f32⟩
  | 93 => ⟨S4194304x6, .f32⟩
  | 94 => ⟨S4194304x6, .f32⟩
  | 95 => ⟨S_, .f32⟩
  | 96 => ⟨S4194304x6, .f32⟩
  | 97 => ⟨S4194304x6, .f32⟩
  | 98 => ⟨S_, .f32⟩
  | 99 => ⟨S4194304x6, .f32⟩
  | 100 => ⟨S4194304x6, .f32⟩
  | 101 => ⟨S6x4, .f32⟩
  | 102 => ⟨S4194304x4, .f32⟩
  | 103 => ⟨S1x4, .f32⟩
  | 104 => ⟨S4194304x4, .f32⟩
  | 105 => ⟨S4194304x4, .f32⟩
  | 106 => ⟨S4194304x4, .f32⟩
  | 107 => ⟨S4194304x4, .f32⟩
  | 108 => ⟨S_, .f32⟩
  | 109 => ⟨S4194304x4, .f32⟩
  | 110 => ⟨S4194304x4, .f32⟩
  | 111 => ⟨S_, .f32⟩
  | 112 => ⟨S4194304x4, .f32⟩
  | 113 => ⟨S4194304x4, .f32⟩
  | 114 => ⟨S4x4, .f32⟩
  | 115 => ⟨S4194304x4, .f32⟩
  | 116 => ⟨S1x4, .f32⟩
  | 117 => ⟨S4194304x4, .f32⟩
  | 118 => ⟨S4194304x4, .f32⟩
  | 119 => ⟨S4194304x4, .f32⟩
  | 120 => ⟨S4194304x4, .f32⟩
  | 121 => ⟨S_, .f32⟩
  | 122 => ⟨S4194304x4, .f32⟩
  | 123 => ⟨S4194304x4, .f32⟩
  | 124 => ⟨S_, .f32⟩
  | 125 => ⟨S4194304x4, .f32⟩
  | 126 => ⟨S4194304x4, .f32⟩
  | 127 => ⟨S4x4, .f32⟩
  | _ => ⟨S4194304x8, .f32⟩

abbrev hbmTy0_1 (i : Nat) : BufTy := match i % 128 with
  | 0 => ⟨S4194304x4, .f32⟩
  | 1 => ⟨S1x4, .f32⟩
  | 2 => ⟨S4194304x4, .f32⟩
  | 3 => ⟨S4194304x4, .f32⟩
  | 4 => ⟨S4194304x4, .f32⟩
  | 5 => ⟨S4194304x4, .f32⟩
  | 6 => ⟨S_, .f32⟩
  | 7 => ⟨S4194304x4, .f32⟩
  | 8 => ⟨S4194304x4, .f32⟩
  | 9 => ⟨S_, .f32⟩
  | 10 => ⟨S4194304x4, .f32⟩
  | 11 => ⟨S4194304x4, .f32⟩
  | 12 => ⟨S4x4, .f32⟩
  | 13 => ⟨S4194304x4, .f32⟩
  | 14 => ⟨S1x4, .f32⟩
  | 15 => ⟨S4194304x4, .f32⟩
  | 16 => ⟨S4194304x4, .f32⟩
  | 17 => ⟨S4194304x4, .f32⟩
  | 18 => ⟨S4194304x4, .f32⟩
  | 19 => ⟨S_, .f32⟩
  | 20 => ⟨S4194304x4, .f32⟩
  | 21 => ⟨S4194304x4, .f32⟩
  | 22 => ⟨S_, .f32⟩
  | 23 => ⟨S4194304x4, .f32⟩
  | 24 => ⟨S4194304x4, .f32⟩
  | 25 => ⟨S4x1, .f32⟩
  | 26 => ⟨S4194304x1, .f32⟩
  | 27 => ⟨S1x1, .f32⟩
  | 28 => ⟨S4194304x1, .f32⟩
  | 29 => ⟨S4194304x1, .f32⟩
  | 30 => ⟨S4194304x1, .f32⟩
  | 31 => ⟨S4194304x1, .f32⟩
  | 32 => ⟨S_, .f32⟩
  | 33 => ⟨S4194304x1, .f32⟩
  | 34 => ⟨S4194304x1, .f32⟩
  | 35 => ⟨S_, .f32⟩
  | 36 => ⟨S4194304x1, .f32⟩
  | 37 => ⟨S4194304x1, .f32⟩
  | _ => ⟨S4194304x8, .f32⟩

abbrev hbmTy (i : Nat) : BufTy := match i / 128 with
  | 0 => hbmTy0_0 i
  | 1 => hbmTy0_1 i
  | _ => ⟨S4194304x8, .f32⟩

abbrev bufTy : (tb : Table) → Fin (tcTables nBuf tb) → BufTy
  | .hbm, ⟨i, _⟩ => hbmTy i
  | _, _ => ⟨S4194304x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_1 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_5 : Ref sig .tc := ⟨.hbm, 69, rfl⟩
abbrev main_v40 : Ref sig .tc := ⟨.hbm, 70, rfl⟩
abbrev main_v41 : Ref sig .tc := ⟨.hbm, 71, rfl⟩
abbrev main_cst_6 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_9 : Ref sig .tc := ⟨.hbm, 95, rfl⟩
abbrev main_v62 : Ref sig .tc := ⟨.hbm, 96, rfl⟩
abbrev main_v63 : Ref sig .tc := ⟨.hbm, 97, rfl⟩
abbrev main_cst_10 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_cst_12 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_13 : Ref sig .tc := ⟨.hbm, 121, rfl⟩
abbrev main_v84 : Ref sig .tc := ⟨.hbm, 122, rfl⟩
abbrev main_v85 : Ref sig .tc := ⟨.hbm, 123, rfl⟩
abbrev main_cst_14 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_15 : Ref sig .tc := ⟨.hbm, 134, rfl⟩
abbrev main_v95 : Ref sig .tc := ⟨.hbm, 135, rfl⟩
abbrev main_v96 : Ref sig .tc := ⟨.hbm, 136, rfl⟩
abbrev main_cst_16 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_17 : Ref sig .tc := ⟨.hbm, 147, rfl⟩
abbrev main_v106 : Ref sig .tc := ⟨.hbm, 148, rfl⟩
abbrev main_v107 : Ref sig .tc := ⟨.hbm, 149, rfl⟩
abbrev main_cst_18 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_19 : Ref sig .tc := ⟨.hbm, 160, rfl⟩
abbrev main_v117 : Ref sig .tc := ⟨.hbm, 161, rfl⟩
abbrev main_v118 : Ref sig .tc := ⟨.hbm, 162, rfl⟩
abbrev main_cst_20 : Ref sig .tc := ⟨.hbm, 163, rfl⟩
abbrev main_v119 : Ref sig .tc := ⟨.hbm, 164, rfl⟩
abbrev main_v120 : Ref sig .tc := ⟨.hbm, 165, rfl⟩

abbrev nD : Nat := 1
abbrev τ : Topo := Topo.v7x

variable {F : FTy → Type} [FloatOps F]

class Facts₀ : Prop where
  transposes_S6x8_S8x6_1_0 : S6x8.Transposes [1, 0] S8x6
  bcast_S6_S1x6_1 : S6.BroadcastsInDim S1x6 (![1] : Fin 1 → Fin S1x6.rank)
  bcast_S1x6_S4194304x6_0_1 : S1x6.BroadcastsInDim S4194304x6 (![0, 1] : Fin 2 → Fin S4194304x6.rank)
  bcast_S_S4194304x6 : S_.BroadcastsInDim S4194304x6 (![] : Fin 0 → Fin S4194304x6.rank)
  transposes_S6x6_S6x6_1_0 : S6x6.Transposes [1, 0] S6x6
  transposes_S4x6_S6x4_1_0 : S4x6.Transposes [1, 0] S6x4
  bcast_S4_S1x4_1 : S4.BroadcastsInDim S1x4 (![1] : Fin 1 → Fin S1x4.rank)
  bcast_S1x4_S4194304x4_0_1 : S1x4.BroadcastsInDim S4194304x4 (![0, 1] : Fin 2 → Fin S4194304x4.rank)
  bcast_S_S4194304x4 : S_.BroadcastsInDim S4194304x4 (![] : Fin 0 → Fin S4194304x4.rank)
  transposes_S4x4_S4x4_1_0 : S4x4.Transposes [1, 0] S4x4
  transposes_S1x4_S4x1_1_0 : S1x4.Transposes [1, 0] S4x1
  bcast_S1_S1x1_1 : S1.BroadcastsInDim S1x1 (![1] : Fin 1 → Fin S1x1.rank)
  bcast_S1x1_S4194304x1_0_1 : S1x1.BroadcastsInDim S4194304x1 (![0, 1] : Fin 2 → Fin S4194304x1.rank)
  bcast_S_S4194304x1 : S_.BroadcastsInDim S4194304x1 (![] : Fin 0 → Fin S4194304x1.rank)
  dot_S4194304x8_S8x6_S4194304x6_1_0_0_1_n_n_wf : DotDims.WF S4194304x8 S8x6 S4194304x6 [1] [0] [0] [1] [] []
  dot_S4194304x6_S6x6_S4194304x6_1_0_0_1_n_n_wf : DotDims.WF S4194304x6 S6x6 S4194304x6 [1] [0] [0] [1] [] []
  dot_S4194304x6_S6x4_S4194304x4_1_0_0_1_n_n_wf : DotDims.WF S4194304x6 S6x4 S4194304x4 [1] [0] [0] [1] [] []
  dot_S4194304x4_S4x4_S4194304x4_1_0_0_1_n_n_wf : DotDims.WF S4194304x4 S4x4 S4194304x4 [1] [0] [0] [1] [] []
  dot_S4194304x4_S4x1_S4194304x1_1_0_0_1_n_n_wf : DotDims.WF S4194304x4 S4x1 S4194304x1 [1] [0] [0] [1] [] []

variable [Facts₀]

def dot_S4194304x8_S8x6_S4194304x6_1_0_0_1_n_n : DotDims S4194304x8 S8x6 S4194304x6 where
  lhsContracting := [1]
  rhsContracting := [0]
  lhsNonContracting := [0]
  rhsNonContracting := [1]
  lhsBatch := []
  rhsBatch := []
  wf := dot_S4194304x8_S8x6_S4194304x6_1_0_0_1_n_n_wf
def dot_S4194304x6_S6x6_S4194304x6_1_0_0_1_n_n : DotDims S4194304x6 S6x6 S4194304x6 where
  lhsContracting := [1]
  rhsContracting := [0]
  lhsNonContracting := [0]
  rhsNonContracting := [1]
  lhsBatch := []
  rhsBatch := []
  wf := dot_S4194304x6_S6x6_S4194304x6_1_0_0_1_n_n_wf
def dot_S4194304x6_S6x4_S4194304x4_1_0_0_1_n_n : DotDims S4194304x6 S6x4 S4194304x4 where
  lhsContracting := [1]
  rhsContracting := [0]
  lhsNonContracting := [0]
  rhsNonContracting := [1]
  lhsBatch := []
  rhsBatch := []
  wf := dot_S4194304x6_S6x4_S4194304x4_1_0_0_1_n_n_wf
def dot_S4194304x4_S4x4_S4194304x4_1_0_0_1_n_n : DotDims S4194304x4 S4x4 S4194304x4 where
  lhsContracting := [1]
  rhsContracting := [0]
  lhsNonContracting := [0]
  rhsNonContracting := [1]
  lhsBatch := []
  rhsBatch := []
  wf := dot_S4194304x4_S4x4_S4194304x4_1_0_0_1_n_n_wf
def dot_S4194304x4_S4x1_S4194304x1_1_0_0_1_n_n : DotDims S4194304x4 S4x1 S4194304x1 where
  lhsContracting := [1]
  rhsContracting := [0]
  lhsNonContracting := [0]
  rhsNonContracting := [1]
  lhsBatch := []
  rhsBatch := []
  wf := dot_S4194304x4_S4x1_S4194304x1_1_0_0_1_n_n_wf

class Facts : Prop extends Facts₀ where

variable [Facts]
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.Net.lean ====
/-
  A stack of eleven logistic layers over a matrix of rows.

  One layer sends a matrix h of M rows and k columns to the matrix of M rows and n columns whose entry (r, j) is
      1 / (1 + exp (-(Σ_c h(r, c) · W(j, c) + b(j)))),
  W an n × k weight matrix and b a vector of n biases. Row r of the result reads row r of h only, so a block of rows
  pushed through a layer is the same block of rows of the whole matrix pushed through it. Composing eleven layers
  (widths 8 → 6 → 6 → 6 → 6 → 6 → 6 → 4 → 4 → 4 → 4 → 1) keeps that: a block of rows of the input determines the
  same block of rows of the output.

  The layer is written twice: over a block, with the product on the matrix unit into a zero accumulator, the bias
  cast to a row and broadcast down the block, and the logistic function as one operation; and over the whole array,
  with the weight transposed, the plain product, the bias broadcast in two steps, and the logistic function spelt
  1 / (1 + exp (-z)). At extended reals both are the same function of the row.
-/
import proofs.«141304_j21981642621237_1_alg».proof.Proof.LibRowLayers

noncomputable section

open scoped BigOperators

namespace LogisticStack

open Idealize.ShloMosaic Idealize.ShloMosaic.ValueIdx RowLayers

variable {mb M k n : ℕ}

/-- The affine part of a layer over a block, the weight taken as it is: at (r, j) it is the inner product of row r
    of the block with row j of the weight matrix, plus bias j. -/
theorem blockAffine_apply (hsc : (⟨1, ![n]⟩ : Shape).ShapeCasts ⟨2, ![1, n]⟩)
    (hbc : (⟨2, ![1, n]⟩ : Shape).Broadcasts ⟨2, ![mb, n]⟩)
    (x : FVec Ideal ⟨2, ![mb, k]⟩ .f32) (w : FVec Ideal ⟨2, ![n, k]⟩ .f32) (b : FVec Ideal ⟨1, ![n]⟩ .f32)
    (r : Fin mb) (j : Fin n) :
    addf (matmul (DotDims.transposedRhs mb k n) none x w (constant ⟨2, ![mb, n]⟩ .f32 0x00000000#32))
        (broadcastTo ⟨2, ![mb, n]⟩ (shapeCast ⟨2, ![1, n]⟩ b hsc) hbc) (ix2 r j)
      = (∑ c : Fin k, x (ix2 r c) * w (ix2 j c)) + b (ix1 j) := by
  rw [addf_apply, matmulT_apply, biasRow_apply]

/-- One layer over a block of mb rows. -/
abbrev blockLayer (hsc : (⟨1, ![n]⟩ : Shape).ShapeCasts ⟨2, ![1, n]⟩)
    (hbc : (⟨2, ![1, n]⟩ : Shape).Broadcasts ⟨2, ![mb, n]⟩)
    (x : FVec Ideal ⟨2, ![mb, k]⟩ .f32) (w : FVec Ideal ⟨2, ![n, k]⟩ .f32) (b : FVec Ideal ⟨1, ![n]⟩ .f32) :
    FVec Ideal ⟨2, ![mb, n]⟩ .f32 :=
  logistic (addf (matmul (DotDims.transposedRhs mb k n) none x w (constant ⟨2, ![mb, n]⟩ .f32 0x00000000#32))
    (broadcastTo ⟨2, ![mb, n]⟩ (shapeCast ⟨2, ![1, n]⟩ b hsc) hbc))

/-- The shape facts the whole-array spelling of a layer of k inputs and n outputs over M rows cites. -/
structure WholeFacts (M k n : ℕ) : Prop where
  htr : (⟨2, ![n, k]⟩ : Shape).Transposes [1, 0] ⟨2, ![k, n]⟩
  h1 : (⟨1, ![n]⟩ : Shape).BroadcastsInDim ⟨2, ![1, n]⟩ ![1]
  h01 : (⟨2, ![1, n]⟩ : Shape).BroadcastsInDim ⟨2, ![M, n]⟩ ![0, 1]
  hs : (⟨0, ![]⟩ : Shape).BroadcastsInDim ⟨2, ![M, n]⟩ ![]

/-- One layer over the whole array of M rows. -/
abbrev wholeLayer {F : FTy → Type} [FloatOps F] (f : WholeFacts M k n)
    (X : FVec F ⟨2, ![M, k]⟩ .f32) (w : FVec F ⟨2, ![n, k]⟩ .f32) (b : FVec F ⟨1, ![n]⟩ .f32) : FVec F ⟨2, ![M, n]⟩ .f32 :=
  Whole.sigmoid f.hs (Whole.affine f.htr f.h1 f.h01 X w b)

/-- A block whose rows are rows of the whole matrix, pushed through a layer, has the same rows of the whole matrix
    pushed through the layer. -/
theorem layer_rows {σ : Fin mb → Fin M} (hsc : (⟨1, ![n]⟩ : Shape).ShapeCasts ⟨2, ![1, n]⟩)
    (hbc : (⟨2, ![1, n]⟩ : Shape).Broadcasts ⟨2, ![mb, n]⟩) (f : WholeFacts M k n)
    {x : FVec Ideal ⟨2, ![mb, k]⟩ .f32} {X : FVec Ideal ⟨2, ![M, k]⟩ .f32} (hx : Rows σ x X)
    (w : FVec Ideal ⟨2, ![n, k]⟩ .f32) (b : FVec Ideal ⟨1, ![n]⟩ .f32) :
    Rows σ (blockLayer hsc hbc x w b) (wholeLayer f X w b) :=
  Rows.logistic f.hs f.hs (fun p c => by
    rw [blockAffine_apply]
    refine Eq.trans ?_ (hostAffine_apply f.htr f.h1 f.h01 X w b (σ p) c).symm
    simp only [hx p])

/-! ## The eleven layers over 4194304 rows -/

theorem facts86 : WholeFacts 4194304 8 6 := ⟨by decide, by decide, by decide, by decide⟩
theorem facts66 : WholeFacts 4194304 6 6 := ⟨by decide, by decide, by decide, by decide⟩
theorem facts64 : WholeFacts 4194304 6 4 := ⟨by decide, by decide, by decide, by decide⟩
theorem facts44 : WholeFacts 4194304 4 4 := ⟨by decide, by decide, by decide, by decide⟩
theorem facts41 : WholeFacts 4194304 4 1 := ⟨by decide, by decide, by decide, by decide⟩

/-- The weights and biases of the eleven layers. -/
structure Params (F : FTy → Type) where
  w1 : FVec F ⟨2, ![6, 8]⟩ .f32
  b1 : FVec F ⟨1, ![6]⟩ .f32
  w2 : FVec F ⟨2, ![6, 6]⟩ .f32
  b2 : FVec F ⟨1, ![6]⟩ .f32
  w3 : FVec F ⟨2, ![6, 6]⟩ .f32
  b3 : FVec F ⟨1, ![6]⟩ .f32
  w4 : FVec F ⟨2, ![6, 6]⟩ .f32
  b4 : FVec F ⟨1, ![6]⟩ .f32
  w5 : FVec F ⟨2, ![6, 6]⟩ .f32
  b5 : FVec F ⟨1, ![6]⟩ .f32
  w6 : FVec F ⟨2, ![6, 6]⟩ .f32
  b6 : FVec F ⟨1, ![6]⟩ .f32
  w7 : FVec F ⟨2, ![4, 6]⟩ .f32
  b7 : FVec F ⟨1, ![4]⟩ .f32
  w8 : FVec F ⟨2, ![4, 4]⟩ .f32
  b8 : FVec F ⟨1, ![4]⟩ .f32
  w9 : FVec F ⟨2, ![4, 4]⟩ .f32
  b9 : FVec F ⟨1, ![4]⟩ .f32
  w10 : FVec F ⟨2, ![4, 4]⟩ .f32
  b10 : FVec F ⟨1, ![4]⟩ .f32
  w11 : FVec F ⟨2, ![1, 4]⟩ .f32
  b11 : FVec F ⟨1, ![1]⟩ .f32

/-- The whole network: the input matrix through the eleven layers in turn. -/
def whole {F : FTy → Type} [FloatOps F] (X : FVec F ⟨2, ![4194304, 8]⟩ .f32) (θ : Params F) :
    FVec F ⟨2, ![4194304, 1]⟩ .f32 :=
  wholeLayer facts41 (wholeLayer facts44 (wholeLayer facts44 (wholeLayer facts44 (wholeLayer facts64
    (wholeLayer facts66 (wholeLayer facts66 (wholeLayer facts66 (wholeLayer facts66 (wholeLayer facts66
      (wholeLayer facts86 X θ.w1 θ.b1) θ.w2 θ.b2) θ.w3 θ.b3) θ.w4 θ.b4) θ.w5 θ.b5) θ.w6 θ.b6)
    θ.w7 θ.b7) θ.w8 θ.b8) θ.w9 θ.b9) θ.w10 θ.b10) θ.w11 θ.b11

end LogisticStack

end
-- ==== Proof.ParamBlocks.lean ====
/-
  The eleven weight matrices and eleven bias vectors are each staged whole: the window's index map is constantly
  zero, its block has the array's own extents, so an element of the block sits in the array at its own coordinates
  and the block read off the array is the array.
-/
import proofs.«141304_j21981642621237_1_alg».proof.Proof.Gen.KernelIdeal.Frame
import Idealize.ShloMosaic.Lib.Pipeline.Value

set_option maxRecDepth 16384

noncomputable section

namespace Cert.KernelIdeal.Stack

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Window 1's block index is zero at every point. -/
theorem index1 : ∀ (t : Fin cfg0.N) (a : Fin 2), win0_1.index t a = 0 :=
  (by decide +kernel : ∀ (t : Fin grid0.N) (a : Fin 2), win0_1.index t a = 0)

/-- So its block at every point is the array it stages. -/
theorem block1 (c : Dev nD) (t : Fin cfg0.N) : iblk m c 1 t = V m c main_arg1 := by
  funext y
  show V m c main_arg1 (((cfg0.win 1).blk t).view.emb y) = V m c main_arg1 y
  exact congrArg (V m c main_arg1) (funext fun a => Fin.ext (win0_1.rect_emb_val_of_index_zero t a (index1 t a) y))

/-- Window 2's block index is zero at every point. -/
theorem index2 : ∀ (t : Fin cfg0.N) (a : Fin 1), win0_2.index t a = 0 :=
  (by decide +kernel : ∀ (t : Fin grid0.N) (a : Fin 1), win0_2.index t a = 0)

/-- So its block at every point is the array it stages. -/
theorem block2 (c : Dev nD) (t : Fin cfg0.N) : iblk m c 2 t = V m c main_arg2 := by
  funext y
  show V m c main_arg2 (((cfg0.win 2).blk t).view.emb y) = V m c main_arg2 y
  exact congrArg (V m c main_arg2) (funext fun a => Fin.ext (win0_2.rect_emb_val_of_index_zero t a (index2 t a) y))

/-- Window 3's block index is zero at every point. -/
theorem index3 : ∀ (t : Fin cfg0.N) (a : Fin 2), win0_3.index t a = 0 :=
  (by decide +kernel : ∀ (t : Fin grid0.N) (a : Fin 2), win0_3.index t a = 0)

/-- So its block at every point is the array it stages. -/
theorem block3 (c : Dev nD) (t : Fin cfg0.N) : iblk m c 3 t = V m c main_arg3 := by
  funext y
  show V m c main_arg3 (((cfg0.win 3).blk t).view.emb y) = V m c main_arg3 y
  exact congrArg (V m c main_arg3) (funext fun a => Fin.ext (win0_3.rect_emb_val_of_index_zero t a (index3 t a) y))

/-- Window 4's block index is zero at every point. -/
theorem index4 : ∀ (t : Fin cfg0.N) (a : Fin 1), win0_4.index t a = 0 :=
  (by decide +kernel : ∀ (t : Fin grid0.N) (a : Fin 1), win0_4.index t a = 0)

/-- So its block at every point is the array it stages. -/
theorem block4 (c : Dev nD) (t : Fin cfg0.N) : iblk m c 4 t = V m c main_arg4 := by
  funext y
  show V m c main_arg4 (((cfg0.win 4).blk t).view.emb y) = V m c main_arg4 y
  exact congrArg (V m c main_arg4) (funext fun a => Fin.ext (win0_4.rect_emb_val_of_index_zero t a (index4 t a) y))

/-- Window 5's block index is zero at every point. -/
theorem index5 : ∀ (t : Fin cfg0.N) (a : Fin 2), win0_5.index t a = 0 :=
  (by decide +kernel : ∀ (t : Fin grid0.N) (a : Fin 2), win0_5.index t a = 0)

/-- So its block at every point is the array it stages. -/
theorem block5 (c : Dev nD) (t : Fin cfg0.N) : iblk m c 5 t = V m c main_arg5 := by
  funext y
  show V m c main_arg5 (((cfg0.win 5).blk t).view.emb y) = V m c main_arg5 y
  exact congrArg (V m c main_arg5) (funext fun a => Fin.ext (win0_5.rect_emb_val_of_index_zero t a (index5 t a) y))

/-- Window 6's block index is zero at every point. -/
theorem index6 : ∀ (t : Fin cfg0.N) (a : Fin 1), win0_6.index t a = 0 :=
  (by decide +kernel : ∀ (t : Fin grid0.N) (a : Fin 1), win0_6.index t a = 0)

/-- So its block at every point is the array it stages. -/
theorem block6 (c : Dev nD) (t : Fin cfg0.N) : iblk m c 6 t = V m c main_arg6 := by
  funext y
  show V m c main_arg6 (((cfg0.win 6).blk t).view.emb y) = V m c main_arg6 y
  exact congrArg (V m c main_arg6) (funext fun a => Fin.ext (win0_6.rect_emb_val_of_index_zero t a (index6 t a) y))

/-- Window 7's block index is zero at every point. -/
theorem index7 : ∀ (t : Fin cfg0.N) (a : Fin 2), win0_7.index t a = 0 :=
  (by decide +kernel : ∀ (t : Fin grid0.N) (a : Fin 2), win0_7.index t a = 0)

/-- So its block at every point is the array it stages. -/
theorem block7 (c : Dev nD) (t : Fin cfg0.N) : iblk m c 7 t = V m c main_arg7 := by
  funext y
  show V m c main_arg7 (((cfg0.win 7).blk t).view.emb y) = V m c main_arg7 y
  exact congrArg (V m c main_arg7) (funext fun a => Fin.ext (win0_7.rect_emb_val_of_index_zero t a (index7 t a) y))

/-- Window 8's block index is zero at every point. -/
theorem index8 : ∀ (t : Fin cfg0.N) (a : Fin 1), win0_8.index t a = 0 :=
  (by decide +kernel : ∀ (t : Fin grid0.N) (a : Fin 1), win0_8.index t a = 0)

/-- So its block at every point is the array it stages. -/
theorem block8 (c : Dev nD) (t : Fin cfg0.N) : iblk m c 8 t = V m c main_arg8 := by
  funext y
  show V m c main_arg8 (((cfg0.win 8).blk t).view.emb y) = V m c main_arg8 y
  exact congrArg (V m c main_arg8) (funext fun a => Fin.ext (win0_8.rect_emb_val_of_index_zero t a (index8 t a) y))

/-- Window 9's block index is zero at every point. -/
theorem index9 : ∀ (t : Fin cfg0.N) (a : Fin 2), win0_9.index t a = 0 :=
  (by decide +kernel : ∀ (t : Fin grid0.N) (a : Fin 2), win0_9.index t a = 0)

/-- So its block at every point is the array it stages. -/
theorem block9 (c : Dev nD) (t : Fin cfg0.N) : iblk m c 9 t = V m c main_arg9 := by
  funext y
  show V m c main_arg9 (((cfg0.win 9).blk t).view.emb y) = V m c main_arg9 y
  exact congrArg (V m c main_arg9) (funext fun a => Fin.ext (win0_9.rect_emb_val_of_index_zero t a (index9 t a) y))

/-- Window 10's block index is zero at every point. -/
theorem index10 : ∀ (t : Fin cfg0.N) (a : Fin 1), win0_10.index t a = 0 :=
  (by decide +kernel : ∀ (t : Fin grid0.N) (a : Fin 1), win0_10.index t a = 0)

/-- So its block at every point is the array it stages. -/
theorem block10 (c : Dev nD) (t : Fin cfg0.N) : iblk m c 10 t = V m c main_arg10 := by
  funext y
  show V m c main_arg10 (((cfg0.win 10).blk t).view.emb y) = V m c main_arg10 y
  exact congrArg (V m c main_arg10) (funext fun a => Fin.ext (win0_10.rect_emb_val_of_index_zero t a (index10 t a) y))

/-- Window 11's block index is zero at every point. -/
theorem index11 : ∀ (t : Fin cfg0.N) (a : Fin 2), win0_11.index t a = 0 :=
  (by decide +kernel : ∀ (t : Fin grid0.N) (a : Fin 2), win0_11.index t a = 0)

/-- So its block at every point is the array it stages. -/
theorem block11 (c : Dev nD) (t : Fin cfg0.N) : iblk m c 11 t = V m c main_arg11 := by
  funext y
  show V m c main_arg11 (((cfg0.win 11).blk t).view.emb y) = V m c main_arg11 y
  exact congrArg (V m c main_arg11) (funext fun a => Fin.ext (win0_11.rect_emb_val_of_index_zero t a (index11 t a) y))

/-- Window 12's block index is zero at every point. -/
theorem index12 : ∀ (t : Fin cfg0.N) (a : Fin 1), win0_12.index t a = 0 :=
  (by decide +kernel : ∀ (t : Fin grid0.N) (a : Fin 1), win0_12.index t a = 0)

/-- So its block at every point is the array it stages. -/
theorem block12 (c : Dev nD) (t : Fin cfg0.N) : iblk m c 12 t = V m c main_arg12 := by
  funext y
  show V m c main_arg12 (((cfg0.win 12).blk t).view.emb y) = V m c main_arg12 y
  exact congrArg (V m c main_arg12) (funext fun a => Fin.ext (win0_12.rect_emb_val_of_index_zero t a (index12 t a) y))

/-- Window 13's block index is zero at every point. -/
theorem index13 : ∀ (t : Fin cfg0.N) (a : Fin 2), win0_13.index t a = 0 :=
  (by decide +kernel : ∀ (t : Fin grid0.N) (a : Fin 2), win0_13.index t a = 0)

/-- So its block at every point is the array it stages. -/
theorem block13 (c : Dev nD) (t : Fin cfg0.N) : iblk m c 13 t = V m c main_arg13 := by
  funext y
  show V m c main_arg13 (((cfg0.win 13).blk t).view.emb y) = V m c main_arg13 y
  exact congrArg (V m c main_arg13) (funext fun a => Fin.ext (win0_13.rect_emb_val_of_index_zero t a (index13 t a) y))

/-- Window 14's block index is zero at every point. -/
theorem index14 : ∀ (t : Fin cfg0.N) (a : Fin 1), win0_14.index t a = 0 :=
  (by decide +kernel : ∀ (t : Fin grid0.N) (a : Fin 1), win0_14.index t a = 0)

/-- So its block at every point is the array it stages. -/
theorem block14 (c : Dev nD) (t : Fin cfg0.N) : iblk m c 14 t = V m c main_arg14 := by
  funext y
  show V m c main_arg14 (((cfg0.win 14).blk t).view.emb y) = V m c main_arg14 y
  exact congrArg (V m c main_arg14) (funext fun a => Fin.ext (win0_14.rect_emb_val_of_index_zero t a (index14 t a) y))

/-- Window 15's block index is zero at every point. -/
theorem index15 : ∀ (t : Fin cfg0.N) (a : Fin 2), win0_15.index t a = 0 :=
  (by decide +kernel : ∀ (t : Fin grid0.N) (a : Fin 2), win0_15.index t a = 0)

/-- So its block at every point is the array it stages. -/
theorem block15 (c : Dev nD) (t : Fin cfg0.N) : iblk m c 15 t = V m c main_arg15 := by
  funext y
  show V m c main_arg15 (((cfg0.win 15).blk t).view.emb y) = V m c main_arg15 y
  exact congrArg (V m c main_arg15) (funext fun a => Fin.ext (win0_15.rect_emb_val_of_index_zero t a (index15 t a) y))

/-- Window 16's block index is zero at every point. -/
theorem index16 : ∀ (t : Fin cfg0.N) (a : Fin 1), win0_16.index t a = 0 :=
  (by decide +kernel : ∀ (t : Fin grid0.N) (a : Fin 1), win0_16.index t a = 0)

/-- So its block at every point is the array it stages. -/
theorem block16 (c : Dev nD) (t : Fin cfg0.N) : iblk m c 16 t = V m c main_arg16 := by
  funext y
  show V m c main_arg16 (((cfg0.win 16).blk t).view.emb y) = V m c main_arg16 y
  exact congrArg (V m c main_arg16) (funext fun a => Fin.ext (win0_16.rect_emb_val_of_index_zero t a (index16 t a) y))

/-- Window 17's block index is zero at every point. -/
theorem index17 : ∀ (t : Fin cfg0.N) (a : Fin 2), win0_17.index t a = 0 :=
  (by decide +kernel : ∀ (t : Fin grid0.N) (a : Fin 2), win0_17.index t a = 0)

/-- So its block at every point is the array it stages. -/
theorem block17 (c : Dev nD) (t : Fin cfg0.N) : iblk m c 17 t = V m c main_arg17 := by
  funext y
  show V m c main_arg17 (((cfg0.win 17).blk t).view.emb y) = V m c main_arg17 y
  exact congrArg (V m c main_arg17) (funext fun a => Fin.ext (win0_17.rect_emb_val_of_index_zero t a (index17 t a) y))

/-- Window 18's block index is zero at every point. -/
theorem index18 : ∀ (t : Fin cfg0.N) (a : Fin 1), win0_18.index t a = 0 :=
  (by decide +kernel : ∀ (t : Fin grid0.N) (a : Fin 1), win0_18.index t a = 0)

/-- So its block at every point is the array it stages. -/
theorem block18 (c : Dev nD) (t : Fin cfg0.N) : iblk m c 18 t = V m c main_arg18 := by
  funext y
  show V m c main_arg18 (((cfg0.win 18).blk t).view.emb y) = V m c main_arg18 y
  exact congrArg (V m c main_arg18) (funext fun a => Fin.ext (win0_18.rect_emb_val_of_index_zero t a (index18 t a) y))

/-- Window 19's block index is zero at every point. -/
theorem index19 : ∀ (t : Fin cfg0.N) (a : Fin 2), win0_19.index t a = 0 :=
  (by decide +kernel : ∀ (t : Fin grid0.N) (a : Fin 2), win0_19.index t a = 0)

/-- So its block at every point is the array it stages. -/
theorem block19 (c : Dev nD) (t : Fin cfg0.N) : iblk m c 19 t = V m c main_arg19 := by
  funext y
  show V m c main_arg19 (((cfg0.win 19).blk t).view.emb y) = V m c main_arg19 y
  exact congrArg (V m c main_arg19) (funext fun a => Fin.ext (win0_19.rect_emb_val_of_index_zero t a (index19 t a) y))

/-- Window 20's block index is zero at every point. -/
theorem index20 : ∀ (t : Fin cfg0.N) (a : Fin 1), win0_20.index t a = 0 :=
  (by decide +kernel : ∀ (t : Fin grid0.N) (a : Fin 1), win0_20.index t a = 0)

/-- So its block at every point is the array it stages. -/
theorem block20 (c : Dev nD) (t : Fin cfg0.N) : iblk m c 20 t = V m c main_arg20 := by
  funext y
  show V m c main_arg20 (((cfg0.win 20).blk t).view.emb y) = V m c main_arg20 y
  exact congrArg (V m c main_arg20) (funext fun a => Fin.ext (win0_20.rect_emb_val_of_index_zero t a (index20 t a) y))

/-- Window 21's block index is zero at every point. -/
theorem index21 : ∀ (t : Fin cfg0.N) (a : Fin 2), win0_21.index t a = 0 :=
  (by decide +kernel : ∀ (t : Fin grid0.N) (a : Fin 2), win0_21.index t a = 0)

/-- So its block at every point is the array it stages. -/
theorem block21 (c : Dev nD) (t : Fin cfg0.N) : iblk m c 21 t = V m c main_arg21 := by
  funext y
  show V m c main_arg21 (((cfg0.win 21).blk t).view.emb y) = V m c main_arg21 y
  exact congrArg (V m c main_arg21) (funext fun a => Fin.ext (win0_21.rect_emb_val_of_index_zero t a (index21 t a) y))

/-- Window 22's block index is zero at every point. -/
theorem index22 : ∀ (t : Fin cfg0.N) (a : Fin 1), win0_22.index t a = 0 :=
  (by decide +kernel : ∀ (t : Fin grid0.N) (a : Fin 1), win0_22.index t a = 0)

/-- So its block at every point is the array it stages. -/
theorem block22 (c : Dev nD) (t : Fin cfg0.N) : iblk m c 22 t = V m c main_arg22 := by
  funext y
  show V m c main_arg22 (((cfg0.win 22).blk t).view.emb y) = V m c main_arg22 y
  exact congrArg (V m c main_arg22) (funext fun a => Fin.ext (win0_22.rect_emb_val_of_index_zero t a (index22 t a) y))

end Cert.KernelIdeal.Stack

end
-- ==== Proof.KernelValue.lean ====
/-
  What the kernel leaves in its result array, at extended reals: the eleven logistic layers of the whole input matrix.

  The grid has 512 points. At point t the body sees rows 8192·t … 8192·t + 8191 of the input matrix (eight columns) and
  the eleven weight matrices and bias vectors whole, and writes rows 8192·t … 8192·t + 8191 of the one-column result.
  The body is the stack of eleven layers over its block of rows. Since each layer's row r reads row r of its operand only,
  the block the body writes is the same block of rows of the whole network's result; the 512 blocks tile the
  4194304 rows, so the array ends holding the whole network's result.
-/
import proofs.«141304_j21981642621237_1_alg».proof.Proof.Gen.KernelIdeal.Value
import proofs.«141304_j21981642621237_1_alg».proof.Proof.Net
import proofs.«141304_j21981642621237_1_alg».proof.Proof.ParamBlocks

set_option maxRecDepth 16384

noncomputable section

namespace Cert.KernelIdeal.Stack

open Cert.KernelIdeal Cert.KernelIdeal.Gen Idealize.ShloMosaic Idealize.ShloMosaic.TcCoe Idealize.SL.Sem
open Idealize.ShloMosaic.ValueIdx RowLayers LogisticStack
open Idealize.ShloMosaic.Pipeline (Dat)

/-! ## The body over a block of rows -/

/-- The products' dimension records are the matrix unit's "right operand contracted on its last axis". -/
theorem dims86 : dot_S8192x8_S6x8_S8192x6_1_1_0_0_n_n = DotDims.transposedRhs 8192 8 6 := rfl
theorem dims66 : dot_S8192x6_S6x6_S8192x6_1_1_0_0_n_n = DotDims.transposedRhs 8192 6 6 := rfl
theorem dims64 : dot_S8192x6_S4x6_S8192x4_1_1_0_0_n_n = DotDims.transposedRhs 8192 6 4 := rfl
theorem dims44 : dot_S8192x4_S4x4_S8192x4_1_1_0_0_n_n = DotDims.transposedRhs 8192 4 4 := rfl
theorem dims41 : dot_S8192x4_S1x4_S8192x1_1_1_0_0_n_n = DotDims.transposedRhs 8192 4 1 := rfl

/-- The body's three stretches composed — layers 1 to 5, 6 to 10, and 11 — on a block whose rows are the σ-rows of
    a whole matrix X: the result's rows are the σ-rows of the whole network of X. -/
theorem body_rows {σ : Fin 8192 → Fin 4194304} (x : Vec Ideal S8192x8 .f32) (X : FVec Ideal ⟨2, ![4194304, 8]⟩ .f32)
    (θ : Params Ideal) (hx : Rows σ x X) :
    Rows σ (k0_pay1 (k0_pay3 (k0_pay2 x θ.w1 θ.b1 θ.w2 θ.b2 θ.w3 θ.b3 θ.w4 θ.b4 θ.w5 θ.b5)
        θ.w6 θ.b6 θ.w7 θ.b7 θ.w8 θ.b8 θ.w9 θ.b9 θ.w10 θ.b10) θ.w11 θ.b11 (constant S8192x1 .f32 0x00000000#32))
      (whole X θ) := by
  unfold k0_pay1 k0_pay3 k0_pay2 whole
  simp only [dims86, dims66, dims64, dims44, dims41]
  exact layer_rows _ _ facts41 (layer_rows _ _ facts44 (layer_rows _ _ facts44 (layer_rows _ _ facts44
    (layer_rows _ _ facts64 (layer_rows _ _ facts66 (layer_rows _ _ facts66 (layer_rows _ _ facts66
      (layer_rows _ _ facts66 (layer_rows _ _ facts66 (layer_rows _ _ facts86 hx θ.w1 θ.b1) θ.w2 θ.b2) θ.w3 θ.b3)
        θ.w4 θ.b4) θ.w5 θ.b5) θ.w6 θ.b6) θ.w7 θ.b7) θ.w8 θ.b8) θ.w9 θ.b9) θ.w10 θ.b10) θ.w11 θ.b11

theorem zeros2 : (![0, 0] : Fin 2 → Nat) = fun _ => 0 := funext fun a => by fin_cases a <;> rfl
theorem zeros1 : (![0] : Fin 1 → Nat) = fun _ => 0 := funext fun a => by fin_cases a; rfl

/-- What the body leaves in the result's buffer, from its blocks: the one whole-buffer store of the stack over the
    whole-buffer loads. At (p, u) it is the whole network's result at row σ p. -/
theorem body_value {σ : Fin 8192 → Fin 4194304} (x : Vec Ideal S8192x8 .f32) (X : FVec Ideal ⟨2, ![4194304, 8]⟩ .f32)
    (θ : Params Ideal) (hx : Rows σ x X) (p : Fin 8192) (u : Fin 1) :
    out0_23 x θ.w1 θ.b1 θ.w2 θ.b2 θ.w3 θ.b3 θ.w4 θ.b4 θ.w5 θ.b5 θ.w6 θ.b6 θ.w7 θ.b7 θ.w8 θ.b8 θ.w9 θ.b9 θ.w10 θ.b10
        θ.w11 θ.b11 (ix2 p u)
      = whole X θ (ix2 (σ p) u) := by
  unfold out0_23
  rw [View.canon_unit_zero zeros2]
  simp only [View.ld_unit_zero (S := S8192x8) zeros2, View.ld_unit_zero (S := S6x8) zeros2,
    View.ld_unit_zero (S := S6x6) zeros2, View.ld_unit_zero (S := S4x6) zeros2, View.ld_unit_zero (S := S4x4) zeros2,
    View.ld_unit_zero (S := S1x4) zeros2, View.ld_unit_zero (S := S6) zeros1, View.ld_unit_zero (S := S4) zeros1,
    View.ld_unit_zero (S := S1) zeros1]
  exact body_rows x X θ hx p u

/-! ## The blocks the body sees -/

variable (m : (ℓ : Loc nD τ sig) → Buf (Elt Ideal) ℓ) (ρ : Dev nD → PrngReg)

/-- The grid has 512 points; the input's and the result's block index is the point's number on the rows' axis and zero
    on the columns' axis (decided over the points). -/
theorem grid_facts : ∀ t : Fin cfg0.N, t.val < 512
    ∧ win0_0.index t (0 : Fin 2) = t.val ∧ win0_0.index t (1 : Fin 2) = 0
    ∧ win0_23.index t (0 : Fin 2) = t.val ∧ win0_23.index t (1 : Fin 2) = 0 :=
  (by decide +kernel : ∀ t : Fin grid0.N, t.val < 512
    ∧ win0_0.index t (0 : Fin 2) = t.val ∧ win0_0.index t (1 : Fin 2) = 0
    ∧ win0_23.index t (0 : Fin 2) = t.val ∧ win0_23.index t (1 : Fin 2) = 0)

/-- Row p of point t's block is row 8192·t + p of the array. -/
def rowAt (t : Fin cfg0.N) (p : Fin 8192) : Fin 4194304 :=
  ⟨t.val * 8192 + p.val, by have := (grid_facts t).1; have := p.isLt; omega⟩

/-- The input's block at point t has the rows 8192·t … of the input matrix. -/
theorem inputBlock_rows (c : Dev nD) (t : Fin cfg0.N) : Rows (rowAt t) (iblk m c 0 t) (V m c main_arg0) := fun p j => by
  obtain ⟨-, e0, e1, -, -⟩ := grid_facts t
  show V m c main_arg0 (((cfg0.win 0).blk t).view.emb (ix2 p j)) = V m c main_arg0 (ix2 (rowAt t p) j)
  refine congrArg (V m c main_arg0) (funext fun a => Fin.ext ?_)
  match a with
  | ⟨0, _⟩ =>
    show win0_0.index t (0 : Fin 2) * 8192 + 1 * p.val = t.val * 8192 + p.val
    rw [e0]; omega
  | ⟨1, _⟩ =>
    show win0_0.index t (1 : Fin 2) * 8 + 1 * j.val = j.val
    rw [e1]; omega

/-- The launched weights and biases. -/
abbrev launched (c : Dev nD) : Params Ideal where
  w1 := V m c main_arg1
  b1 := V m c main_arg2
  w2 := V m c main_arg3
  b2 := V m c main_arg4
  w3 := V m c main_arg5
  b3 := V m c main_arg6
  w4 := V m c main_arg7
  b4 := V m c main_arg8
  w5 := V m c main_arg9
  b5 := V m c main_arg10
  w6 := V m c main_arg11
  b6 := V m c main_arg12
  w7 := V m c main_arg13
  b7 := V m c main_arg14
  w8 := V m c main_arg15
  b8 := V m c main_arg16
  w9 := V m c main_arg17
  b9 := V m c main_arg18
  w10 := V m c main_arg19
  b10 := V m c main_arg20
  w11 := V m c main_arg21
  b11 := V m c main_arg22

/-- The whole network of the launched arrays. -/
abbrev result (c : Dev nD) : FVec Ideal ⟨2, ![4194304, 1]⟩ .f32 := whole (V m c main_arg0) (launched m c)

/-! ## From the blocks to the array -/

/-- What point t writes back is block t of the whole network's result. -/
theorem flushed_eq (c : Dev nD) (t : Fin cfg0.N) :
    (dats m 0 c).flushed 23 t = ((cfg0.win 23).blk t).view.read (Elt Ideal) (result m c) := by
  obtain ⟨-, -, -, e0, e1⟩ := grid_facts t
  rw [Value.flushed23, block1, block2, block3, block4, block5, block6, block7, block8, block9, block10, block11,
    block12, block13, block14, block15, block16, block17, block18, block19, block20, block21, block22]
  funext y
  obtain ⟨p, u, rfl⟩ : ∃ (p : Fin 8192) (u : Fin 1), y = ix2 p u := ⟨y 0, y 1, eq_ix2 y⟩
  refine (body_value (σ := rowAt t) (iblk m c 0 t) (V m c main_arg0) (launched m c) (inputBlock_rows m c t) p u).trans ?_
  show result m c (ix2 (rowAt t p) u) = result m c (((cfg0.win 23).blk t).view.emb (ix2 p u))
  refine congrArg (result m c) (funext fun a => Fin.ext ?_)
  match a with
  | ⟨0, _⟩ =>
    show t.val * 8192 + p.val = win0_23.index t (0 : Fin 2) * 8192 + 1 * p.val
    rw [e0]; omega
  | ⟨1, _⟩ =>
    show u.val = win0_23.index t (1 : Fin 2) * 1 + 1 * u.val
    rw [e1]; omega

/-- An index of the array is in point t's block iff each coordinate is in the block's range on its axis. -/
theorem mem_block (t : Fin cfg0.N) (i : S4194304x1.Idx) :
    i ∈ ((cfg0.win 23).blk t).view.set ↔ ∀ a : Fin 2, win0_23.index t a * S8192x1.size a ≤ (i a).val
      ∧ (i a).val < win0_23.index t a * S8192x1.size a + S8192x1.size a := by
  show i ∈ ((View.whole main_v0).slice (win0_23.rect t)).set ↔ _
  rw [View.set_slice_whole, Rect.mem_set_unit]
  exact Iff.rfl

/-- Row r of the array is in the block of point r / 8192: the 512 blocks tile the rows. -/
theorem covered (i : S4194304x1.Idx) :
    ∃ t : Fin cfg0.N, (cfg0.win 23).flush t = true ∧ i ∈ ((cfg0.win 23).blk t).view.set := by
  have hi0 : (i 0).val < 4194304 := (i 0).isLt
  have hi1 : (i 1).val < 1 := (i 1).isLt
  have hq : (i 0).val / 8192 < cfg0.N := by show (i 0).val / 8192 < 512; omega
  obtain ⟨-, -, -, e0, e1⟩ := grid_facts ⟨(i 0).val / 8192, hq⟩
  refine ⟨⟨(i 0).val / 8192, hq⟩, flush0_23 _, ?_⟩
  rw [mem_block]
  intro a
  match a with
  | ⟨0, _⟩ =>
    show win0_23.index ⟨(i 0).val / 8192, hq⟩ (0 : Fin 2) * 8192 ≤ (i 0).val
      ∧ (i 0).val < win0_23.index ⟨(i 0).val / 8192, hq⟩ (0 : Fin 2) * 8192 + 8192
    rw [e0]; show (i 0).val / 8192 * 8192 ≤ (i 0).val ∧ (i 0).val < (i 0).val / 8192 * 8192 + 8192; omega
  | ⟨1, _⟩ =>
    show win0_23.index ⟨(i 0).val / 8192, hq⟩ (1 : Fin 2) * 1 ≤ (i 1).val
      ∧ (i 1).val < win0_23.index ⟨(i 0).val / 8192, hq⟩ (1 : Fin 2) * 1 + 1
    rw [e1]; omega

/-- So the result array ends holding the whole network's result. -/
theorem final (c : Dev nD) : (dats m 0 c).arrAt 23 cfg0.N = result m c :=
  (dats m 0 c).arrAt_eq_of_cover 23 (result m c) (fun t _ => flushed_eq m c t) covered

/-- The kernel's run: it ends with the result array at the whole network of the launched arrays, the arguments as
    launched. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final m c), (h c).2⟩) (Value.run_blocks m ρ)

end Cert.KernelIdeal.Stack

end
-- ==== Proof.RefValue.lean ====
/-
  What the reference computes, at extended reals: the eleven logistic layers of the whole input matrix.

  The reference is eleven times "transpose the weight, take the plain product with the running matrix, add the bias
  broadcast down the rows, negate, exponentiate, add one, divide one by it". Its run ends with the result at that
  composed term of the launched arrays, which is, layer by layer, the whole-array network.
-/
import proofs.«141304_j21981642621237_1_alg».proof.Proof.Gen.ReferenceIdeal.Run
import proofs.«141304_j21981642621237_1_alg».proof.Proof.Net

set_option maxRecDepth 16384

noncomputable section

namespace Cert.ReferenceIdeal.Stack

open Cert.ReferenceIdeal Cert.ReferenceIdeal.Gen Idealize.ShloMosaic Idealize.ShloMosaic.TcCoe Idealize.SL.Sem
open RowLayers LogisticStack

/-- The products' dimension records are the plain "rows by columns" product's. -/
theorem dims86 : dot_S4194304x8_S8x6_S4194304x6_1_0_0_1_n_n = DotDims.plain 4194304 8 6 := rfl
theorem dims66 : dot_S4194304x6_S6x6_S4194304x6_1_0_0_1_n_n = DotDims.plain 4194304 6 6 := rfl
theorem dims64 : dot_S4194304x6_S6x4_S4194304x4_1_0_0_1_n_n = DotDims.plain 4194304 6 4 := rfl
theorem dims44 : dot_S4194304x4_S4x4_S4194304x4_1_0_0_1_n_n = DotDims.plain 4194304 4 4 := rfl
theorem dims41 : dot_S4194304x4_S4x1_S4194304x1_1_0_0_1_n_n = DotDims.plain 4194304 4 1 := rfl

variable (m : (ℓ : Loc nD τ sig) → Buf (Elt Ideal) ℓ)

/-- The launched weights and biases. -/
abbrev launched (c : Dev nD) : Params Ideal where
  w1 := m ((c.tc : Thread nD τ).loc main_arg1)
  b1 := m ((c.tc : Thread nD τ).loc main_arg2)
  w2 := m ((c.tc : Thread nD τ).loc main_arg3)
  b2 := m ((c.tc : Thread nD τ).loc main_arg4)
  w3 := m ((c.tc : Thread nD τ).loc main_arg5)
  b3 := m ((c.tc : Thread nD τ).loc main_arg6)
  w4 := m ((c.tc : Thread nD τ).loc main_arg7)
  b4 := m ((c.tc : Thread nD τ).loc main_arg8)
  w5 := m ((c.tc : Thread nD τ).loc main_arg9)
  b5 := m ((c.tc : Thread nD τ).loc main_arg10)
  w6 := m ((c.tc : Thread nD τ).loc main_arg11)
  b6 := m ((c.tc : Thread nD τ).loc main_arg12)
  w7 := m ((c.tc : Thread nD τ).loc main_arg13)
  b7 := m ((c.tc : Thread nD τ).loc main_arg14)
  w8 := m ((c.tc : Thread nD τ).loc main_arg15)
  b8 := m ((c.tc : Thread nD τ).loc main_arg16)
  w9 := m ((c.tc : Thread nD τ).loc main_arg17)
  b9 := m ((c.tc : Thread nD τ).loc main_arg18)
  w10 := m ((c.tc : Thread nD τ).loc main_arg19)
  b10 := m ((c.tc : Thread nD τ).loc main_arg20)
  w11 := m ((c.tc : Thread nD τ).loc main_arg21)
  b11 := m ((c.tc : Thread nD τ).loc main_arg22)

/-- The run's result term is the whole network of the launched arrays: the same operations in the same order, the
    shape facts and dimension records being the ones the network is written with. -/
theorem result_eq (c : Dev nD) :
    Value.res_out0 m c = whole (m ((c.tc : Thread nD τ).loc main_arg0)) (launched m c) := by
  show Value.res_main_v120 m c = _
  unfold Value.res_main_v120 whole
  simp only [dims86, dims66, dims64, dims44, dims41]

end Cert.ReferenceIdeal.Stack

end
-- ==== Proof.lean ====
/-
  The certificate: a Pallas kernel that pushes a matrix of 4194304 rows, 8192 rows at a time, through eleven
  logistic layers h ↦ 1 / (1 + exp (-(h · Wᵀ + b))) computes what the plain jnp reference computes.

  At extended reals both programs end with the result array at one function of the launched arrays, the whole-array
  network (Proof/Net.lean): the kernel because every layer's row r reads row r of its operand only, so each grid point's
  block of rows is that block of rows of the whole network and the 512 blocks tile the rows (Proof/KernelValue.lean);
  the reference because its run's term is that network, operation by operation (Proof/RefValue.lean). The logistic
  function is one operation in the kernel and is spelt 1 / (1 + exp (-z)) in the reference: one function of z on the
  extended reals. The kernel's product contracts the weight's last axis; the reference transposes the weight and takes
  the plain product: the same sum over the contracted coordinate. No law that needs finite inputs is used.

  The three frames are the generated frame runs (the reference's: its generated run with the result dropped), and the
  idealization's ledger is empty.
-/
import proofs.«141304_j21981642621237_1_alg».proof.Defs
import proofs.«141304_j21981642621237_1_alg».proof.Proof.Gen.Kernel
import proofs.«141304_j21981642621237_1_alg».proof.Proof.Gen.Kernel.Skeleton
import proofs.«141304_j21981642621237_1_alg».proof.Proof.Gen.Kernel.Launch
import proofs.«141304_j21981642621237_1_alg».proof.Proof.Gen.Kernel.Points
import proofs.«141304_j21981642621237_1_alg».proof.Proof.Gen.Kernel.Frame
import proofs.«141304_j21981642621237_1_alg».proof.Proof.Gen.KernelIdeal
import proofs.«141304_j21981642621237_1_alg».proof.Proof.Gen.KernelIdeal.Skeleton
import proofs.«141304_j21981642621237_1_alg».proof.Proof.Gen.KernelIdeal.Launch
import proofs.«141304_j21981642621237_1_alg».proof.Proof.Gen.KernelIdeal.Points
import proofs.«141304_j21981642621237_1_alg».proof.Proof.Gen.KernelIdeal.Frame
import proofs.«141304_j21981642621237_1_alg».proof.Proof.Gen.ReferenceIdeal
import proofs.«141304_j21981642621237_1_alg».proof.Proof.Gen.Pre_finite_inputs
import proofs.«141304_j21981642621237_1_alg».proof.Proof.KernelValue
import proofs.«141304_j21981642621237_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing: its ledger is empty. -/
theorem preserves : Cert.preserves_Kernel_KernelIdeal := trivial

/-- Both runs end with the result at the whole network of their launched arrays, and the launched arrays agree. -/
theorem algebraic : Cert.algebraic_KernelIdeal_ReferenceIdeal := by
  intro m ρ m' ρ' _ hagree
  refine ⟨fun c => Cert.KernelIdeal.Stack.result m c, Cert.KernelIdeal.Stack.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22⟩ := hagree c
  refine (Cert.ReferenceIdeal.Stack.result_eq m' c).trans ?_
  show LogisticStack.whole _ (Cert.ReferenceIdeal.Stack.launched m' c) = LogisticStack.whole _ (Cert.KernelIdeal.Stack.launched m c)
  dsimp only [Cert.ReferenceIdeal.Stack.launched, Cert.KernelIdeal.Stack.launched]
  rw [h0, h1, h2, h3, h4, h5, h6, h7, h8, h9, h10, h11, h12, h13, h14, h15, h16, h17, h18, h19, h20, h21, h22]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
